-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x7 : Shape := ⟨2, ![1048576, 7]⟩
abbrev S7x7 : Shape := ⟨2, ![7, 7]⟩
abbrev S7 : Shape := ⟨1, ![7]⟩
abbrev S_ : Shape := ⟨0, ![]⟩

class Facts : Prop where
  bcast_S_S1048576x7 : S_.BroadcastsInDim S1048576x7 (![] : Fin 0 → Fin S1048576x7.rank)
  reducesTo_S1048576x7_S_d0_1 : S1048576x7.ReducesTo [0, 1] S_
  h_S_ : 0 < S_.numel
  bcast_S_S7x7 : S_.BroadcastsInDim S7x7 (![] : Fin 0 → Fin S7x7.rank)
  reducesTo_S7x7_S_d0_1 : S7x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7x7 .f32) (main_arg5 : FVec F S7 .f32) (main_v13 : IVec S_ 1) (main_v16 : IVec S7x7 1) : IVec S_ 1 :=
  let main_c_5 : IVec S_ 1 := constantI S_ 1 1#1
  let main_v17 : IVec S_ 1 := (fun x v => Host.reduce IntOp.andi x v reducesTo_S7x7_S_d0_1 h_S_) main_v16 main_c_5
  let main_v18 : IVec S_ 1 := andi main_v13 main_v17
  let main_v19 : FVec F S7x7 .f32 := Host.absf main_arg4
  let main_cst_6 : FVec F S_ .f32 := constant S_ .f32 0x7F800000#32
  let main_v20 : FVec F S7x7 .f32 := broadcastInDim S7x7 ![] bcast_S_S7x7 main_cst_6
  let main_v21 : IVec S7x7 1 := cmpf .olt main_v19 main_v20
  let main_c_7 : IVec S_ 1 := constantI S_ 1 1#1
  let main_v22 : IVec S_ 1 := (fun x v => Host.reduce IntOp.andi x v reducesTo_S7x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S1048576x7 .f32) (main_arg1 : FVec F S1048576x7 .f32) (main_arg2 : FVec F S7x7 .f32) (main_arg3 : FVec F S7x7 .f32) (main_arg4 : FVec F S7x7 .f32) (main_arg5 : FVec F S7 .f32) : IVec S_ 1 :=
  let main_v0 : FVec F S1048576x7 .f32 := Host.absf main_arg0
  let main_cst : FVec F S_ .f32 := constant S_ .f32 0x7F800000#32
  let main_v1 : FVec F S1048576x7 .f32 := broadcastInDim S1048576x7 ![] bcast_S_S1048576x7 main_cst
  let main_v2 : IVec S1048576x7 1 := cmpf .olt main_v0 main_v1
  let main_c : IVec S_ 1 := constantI S_ 1 1#1
  let main_v3 : IVec S_ 1 := (fun x v => Host.reduce IntOp.andi x v reducesTo_S1048576x7_S_d0_1 h_S_) main_v2 main_c
  let main_v4 : FVec F S1048576x7 .f32 := Host.absf main_arg1
  let main_cst_0 : FVec F S_ .f32 := constant S_ .f32 0x7F800000#32
  let main_v5 : FVec F S1048576x7 .f32 := broadcastInDim S1048576x7 ![] bcast_S_S1048576x7 main_cst_0
  let main_v6 : IVec S1048576x7 1 := cmpf .olt main_v4 main_v5
  let main_c_1 : IVec S_ 1 := constantI S_ 1 1#1
  let main_v7 : IVec S_ 1 := (fun x v => Host.reduce IntOp.andi x v reducesTo_S1048576x7_S_d0_1 h_S_) main_v6 main_c_1
  let main_v8 : IVec S_ 1 := andi main_v3 main_v7
  let main_v9 : FVec F S7x7 .f32 := Host.absf main_arg2
  let main_cst_2 : FVec F S_ .f32 := constant S_ .f32 0x7F800000#32
  let main_v10 : FVec F S7x7 .f32 := broadcastInDim S7x7 ![] bcast_S_S7x7 main_cst_2
  let main_v11 : IVec S7x7 1 := cmpf .olt main_v9 main_v10
  let main_c_3 : IVec S_ 1 := constantI S_ 1 1#1
  let main_v12 : IVec S_ 1 := (fun x v => Host.reduce IntOp.andi x v reducesTo_S7x7_S_d0_1 h_S_) main_v11 main_c_3
  let main_v13 : IVec S_ 1 := andi main_v8 main_v12
  let main_v14 : FVec F S7x7 .f32 := Host.absf main_arg3
  let main_cst_4 : FVec F S_ .f32 := constant S_ .f32 0x7F800000#32
  let main_v15 : FVec F S7x7 .f32 := broadcastInDim S7x7 ![] bcast_S_S7x7 main_cst_4
  let main_v16 : IVec S7x7 1 := cmpf .olt main_v14 main_v15
  fn_part1 (F := F) main_arg4 main_arg5 main_v13 main_v16
-- ==== Kernel.lean ====
abbrev S1048576x7 : Shape := ⟨2, ![1048576, 7]⟩
abbrev S7x7 : Shape := ⟨2, ![7, 7]⟩
abbrev S7 : Shape := ⟨1, ![7]⟩
abbrev S_ : Shape := ⟨0, ![]⟩
abbrev S1x7 : Shape := ⟨2, ![1, 7]⟩
abbrev S1x1 : Shape := ⟨2, ![1, 1]⟩
abbrev S4096x7 : Shape := ⟨2, ![4096, 7]⟩
abbrev S4096 : Shape := ⟨1, ![4096]⟩
abbrev S4096x1 : Shape := ⟨2, ![4096, 1]⟩

abbrev nBuf : Space → Nat
  | .hbm => 14
  | .vmem => 10
  | .smem => 0
  | _ => 0

abbrev bufTy : (tb : Table) → Fin (tcTables nBuf tb) → BufTy
  | .hbm, ⟨0, _⟩ => ⟨S1048576x7, .f32⟩
  | .hbm, ⟨1, _⟩ => ⟨S1048576x7, .f32⟩
  | .hbm, ⟨2, _⟩ => ⟨S7x7, .f32⟩
  | .hbm, ⟨3, _⟩ => ⟨S7x7, .f32⟩
  | .hbm, ⟨4, _⟩ => ⟨S7x7, .f32⟩
  | .hbm, ⟨5, _⟩ => ⟨S7, .f32⟩
  | .hbm, ⟨6, _⟩ => ⟨S7x7, .f32⟩
  | .hbm, ⟨7, _⟩ => ⟨S_, .f32⟩
  | .hbm, ⟨8, _⟩ => ⟨S7, .f32⟩
  | .hbm, ⟨9, _⟩ => ⟨S1x7, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S1048576x7, .f32⟩
  | .local _ .vmem, ⟨0, _⟩ => ⟨S4096x7, .f32⟩
  | .local _ .vmem, ⟨1, _⟩ => ⟨S4096x7, .f32⟩
  | .local _ .vmem, ⟨2, _⟩ => ⟨S4096x7, .f32⟩
  | .local _ .vmem, ⟨3, _⟩ => ⟨S4096x7, .f32⟩
  | .local _ .vmem, ⟨4, _⟩ => ⟨S7x7, .f32⟩
  | .local _ .vmem, ⟨5, _⟩ => ⟨S7x7, .f32⟩
  | .local _ .vmem, ⟨6, _⟩ => ⟨S1x7, .f32⟩
  | .local _ .vmem, ⟨7, _⟩ => ⟨S1x1, .f32⟩
  | .local _ .vmem, ⟨8, _⟩ => ⟨S4096x7, .f32⟩
  | .local _ .vmem, ⟨9, _⟩ => ⟨S4096x7, .f32⟩
  | _, _ => ⟨S1048576x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S7x7_S7x7_1_0 : S7x7.Transposes [1, 0] S7x7
  reducesTo_S7x7_S7_d0 : S7x7.ReducesTo [0] S7
  h_S_ : 0 < S_.numel
  shapeCasts_S7_S1x7 : S7.ShapeCasts S1x7
  reducesTo_S7_S_d0 : S7.ReducesTo [0] S_
  shapeCasts_S_S1x1 : S_.ShapeCasts S1x1
  inb_S4096x7_S4096x7_0_0 : ∀ a, (![0, 0] : Fin 2 → Nat) a + S4096x7.size a ≤ S4096x7.size a
  h_S4096x7 : 0 < S4096x7.numel
  inb_S7x7_S7x7_0_0 : ∀ a, (![0, 0] : Fin 2 → Nat) a + S7x7.size a ≤ S7x7.size a
  h_S7x7 : 0 < S7x7.numel
  shapeCasts_S7x7_S7x7 : S7x7.ShapeCasts S7x7
  reduces_S4096x7_S4096 : S4096x7.Reduces [1] S4096
  shapeCasts_S4096_S4096x1 : S4096.ShapeCasts S4096x1
  broadcasts_S4096x1_S4096x7 : S4096x1.Broadcasts S4096x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x7_S4096x7 : S1x7.Broadcasts S4096x7
  broadcasts_S1x1_S4096x7 : S1x1.Broadcasts S4096x7
  dot_S4096x7_S7x7_S4096x7_1_0_0_1_n_n_wf : DotDims.WF S4096x7 S7x7 S4096x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x7.size a ≤ S1048576x7.size a
  hwx0_0 : ∀ i : grid0.Coords, EltTy.bits .f32 = 32 ∨ (Rect.block (s := S1048576x7) S4096x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x7.size a ≤ S1048576x7.size a
  hwx0_1 : ∀ i : grid0.Coords, EltTy.bits .f32 = 32 ∨ (Rect.block (s := S1048576x7) S4096x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x7.size a ≤ S7x7.size a
  hwx0_2 : ∀ i : grid0.Coords, EltTy.bits .f32 = 32 ∨ (Rect.block (s := S7x7) S7x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x7.size a ≤ S7x7.size a
  hwx0_3 : ∀ i : grid0.Coords, EltTy.bits .f32 = 32 ∨ (Rect.block (s := S7x7) S7x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x7.size a ≤ S1x7.size a
  hwx0_4 : ∀ i : grid0.Coords, EltTy.bits .f32 = 32 ∨ (Rect.block (s := S1x7) S1x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x7.size a ≤ S1048576x7.size a
  hwx0_6 : ∀ i : grid0.Coords, EltTy.bits .f32 = 32 ∨ (Rect.block (s := S1048576x7) S4096x7.size (cc0_transform_6 i) (hinb0_6 i)).WholeWords (EltTy.packing .f32)

variable [Facts₀]

def dot_S4096x7_S7x7_S4096x7_1_0_0_1_n_n : DotDims S4096x7 S7x7 S4096x7 where
  lhsContracting := [1]
  rhsContracting := [0]
  lhsNonContracting := [0]
  rhsNonContracting := [1]
  lhsBatch := []
  rhsBatch := []
  wf := dot_S4096x7_S7x7_S4096x7_1_0_0_1_n_n_wf

abbrev win0_0 : Pipeline.Window sig grid0 :=
  Pipeline.Window.ofSpec (Memref.whole main_arg0) S4096x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S7x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4096x7.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x7 : Shape := ⟨2, ![1048576, 7]⟩
abbrev S7x7 : Shape := ⟨2, ![7, 7]⟩
abbrev S7 : Shape := ⟨1, ![7]⟩
abbrev S_ : Shape := ⟨0, ![]⟩
abbrev S1048576 : Shape := ⟨1, ![1048576]⟩
abbrev S1048576x1 : Shape := ⟨2, ![1048576, 1]⟩
abbrev S1x7 : Shape := ⟨2, ![1, 7]⟩

abbrev nBuf : Space → Nat
  | .hbm => 44
  | .vmem => 0
  | .smem => 0
  | _ => 0

abbrev bufTy : (tb : Table) → Fin (tcTables nBuf tb) → BufTy
  | .hbm, ⟨0, _⟩ => ⟨S1048576x7, .f32⟩
  | .hbm, ⟨1, _⟩ => ⟨S1048576x7, .f32⟩
  | .hbm, ⟨2, _⟩ => ⟨S7x7, .f32⟩
  | .hbm, ⟨3, _⟩ => ⟨S7x7, .f32⟩
  | .hbm, ⟨4, _⟩ => ⟨S7x7, .f32⟩
  | .hbm, ⟨5, _⟩ => ⟨S7, .f32⟩
  | .hbm, ⟨6, _⟩ => ⟨S7x7, .f32⟩
  | .hbm, ⟨7, _⟩ => ⟨S1048576x7, .f32⟩
  | .hbm, ⟨8, _⟩ => ⟨S1048576x7, .f32⟩
  | .hbm, ⟨9, _⟩ => ⟨S1048576x7, .f32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S1048576x1, .f32⟩
  | .hbm, ⟨16, _⟩ => ⟨S1048576x7, .f32⟩
  | .hbm, ⟨17, _⟩ => ⟨S1048576x7, .f32⟩
  | .hbm, ⟨18, _⟩ => ⟨S1048576x7, .f32⟩
  | .hbm, ⟨19, _⟩ => ⟨S_, .f32⟩
  | .hbm, ⟨20, _⟩ => ⟨S1048576, .f32⟩
  | .hbm, ⟨21, _⟩ => ⟨S1048576x1, .f32⟩
  | .hbm, ⟨22, _⟩ => ⟨S1048576x7, .f32⟩
  | .hbm, ⟨23, _⟩ => ⟨S1048576x7, .f32⟩
  | .hbm, ⟨24, _⟩ => ⟨S1048576x7, .f32⟩
  | .hbm, ⟨25, _⟩ => ⟨S1048576x7, .f32⟩
  | .hbm, ⟨26, _⟩ => ⟨S_, .f32⟩
  | .hbm, ⟨27, _⟩ => ⟨S7, .f32⟩
  | .hbm, ⟨28, _⟩ => ⟨S1x7, .f32⟩
  | .hbm, ⟨29, _⟩ => ⟨S1048576x7, .f32⟩
  | .hbm, ⟨30, _⟩ => ⟨S1048576x7, .f32⟩
  | .hbm, ⟨31, _⟩ => ⟨S_, .f32⟩
  | .hbm, ⟨32, _⟩ => ⟨S_, .f32⟩
  | .hbm, ⟨33, _⟩ => ⟨S1048576x7, .f32⟩
  | .hbm, ⟨34, _⟩ => ⟨S1048576x7, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1048576x7, .f32⟩
  | .hbm, ⟨39, _⟩ => ⟨S1048576x7, .f32⟩
  | .hbm, ⟨40, _⟩ => ⟨S_, .f32⟩
  | .hbm, ⟨41, _⟩ => ⟨S1048576x7, .f32⟩
  | .hbm, ⟨42, _⟩ => ⟨S1048576x7, .f32⟩
  | .hbm, ⟨43, _⟩ => ⟨S1048576x7, .f32⟩
  | _, _ => ⟨S1048576x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  transposes_S7x7_S7x7_1_0 : S7x7.Transposes [1, 0] S7x7
  reducesTo_S1048576x7_S1048576_d1 : S1048576x7.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x7_0_1 : S1048576x1.BroadcastsInDim S1048576x7 (![0, 1] : Fin 2 → Fin S1048576x7.rank)
  reducesTo_S7x7_S7_d0 : S7x7.ReducesTo [0] S7
  bcast_S7_S1x7_1 : S7.BroadcastsInDim S1x7 (![1] : Fin 1 → Fin S1x7.rank)
  bcast_S1x7_S1048576x7_0_1 : S1x7.BroadcastsInDim S1048576x7 (![0, 1] : Fin 2 → Fin S1048576x7.rank)
  reducesTo_S7_S_d0 : S7.ReducesTo [0] S_
  bcast_S_S1048576x7 : S_.BroadcastsInDim S1048576x7 (![] : Fin 0 → Fin S1048576x7.rank)
  dot_S1048576x7_S7x7_S1048576x7_1_0_0_1_n_n_wf : DotDims.WF S1048576x7 S7x7 S1048576x7 [1] [0] [0] [1] [] []

variable [Facts₀]

def dot_S1048576x7_S7x7_S1048576x7_1_0_0_1_n_n : DotDims S1048576x7 S7x7 S1048576x7 where
  lhsContracting := [1]
  rhsContracting := [0]
  lhsNonContracting := [0]
  rhsNonContracting := [1]
  lhsBatch := []
  rhsBatch := []
  wf := dot_S1048576x7_S7x7_S1048576x7_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibRowOps.lean ====
/-
  Reductions along the rows of an [R, L] array, and the column they leave, read at an index over the extended reals.
  A kernel reduces a block's rows with a lane reduction into an [R] vector, casts it to a column [R, 1] and broadcasts the
  column back over the L lanes; a host program reduces the array over axis 1. Each spelling is read here at a row p (and a
  lane c) as a fold or a sum over the row's entries x (p, k), for any extents.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {R L : Nat} {φ : FTy}

/-- The source index over the reduced index p with k inserted on axis 1 is (p, k). -/
theorem lift_row (h : Shape.Reduces ⟨2, ![R, L]⟩ [1] ⟨1, ![R]⟩) (p : Fin R) (k : Fin L) :
    h.lift (ix1 p) k = ix2 p k := by
  funext a
  apply Fin.ext
  match a with
  | ⟨0, _⟩ => rfl
  | ⟨1, _⟩ => rfl

/-- A lane maximum of an [R, L] block at row p: the fold of max from the accumulator's value over the row. -/
theorem laneMax_apply (x : FVec Ideal ⟨2, ![R, L]⟩ φ) (acc : BitVec φ.bits)
    (h : Shape.Reduces ⟨2, ![R, L]⟩ [1] ⟨1, ![R]⟩) (hφ : FKind.Formats φ) (hacc : acc = FKind.maximumf.neutral φ hφ)
    (p : Fin R) :
    multiReduction .maximumf [1] ⟨1, ![R]⟩ x acc h hφ hacc (ix1 p)
      = (Finset.univ : Finset (Fin L)).fold max (Ideal.ofBits φ acc) (fun k => x (ix2 p k)) := by
  rw [Ideal.multiReduction_maximumf_single]
  have e : (x ∘ h.lift (ix1 p)) = fun k : Fin ((⟨2, ![R, L]⟩ : Shape).size 1) => x (ix2 p k) :=
    funext fun k => congrArg x (lift_row h p k)
  rw [e]
  rfl

/-- A lane sum of an [R, L] block at row p: the sum of the row. -/
theorem laneSum_apply (x : FVec Ideal ⟨2, ![R, L]⟩ φ) (acc : BitVec φ.bits)
    (h : Shape.Reduces ⟨2, ![R, L]⟩ [1] ⟨1, ![R]⟩) (hφ : FKind.Formats φ) (hacc : acc = FKind.add.neutral φ hφ)
    (p : Fin R) :
    multiReduction .add [1] ⟨1, ![R]⟩ x acc h hφ hacc (ix1 p) = ∑ k : Fin L, x (ix2 p k) := by
  rw [Ideal.multiReduction_add_single]
  show ∑ k : Fin L, x (h.lift (ix1 p) k) = _
  exact Finset.sum_congr rfl fun k _ => congrArg x (lift_row h p k)

/-- The host's maximum over axis 1 at row p: the fold of max from the initial value over the row. -/
theorem hostRowMax_apply {u : Shape} (x : (⟨2, ![R, L]⟩ : Shape).Idx → Ideal φ) (init : u.Idx → Ideal φ)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduce FloatOps.maximumf x init h' hu (ix1 p)
      = (Finset.univ : Finset (Fin L)).fold max (init (Shape.Idx.first hu)) (fun k => x (ix2 p k)) := by
  rw [Host.reduce_eq_fold_single FloatOps.maximumf x init h' h hu]
  have e : (x ∘ h.lift (ix1 p)) = fun k : Fin ((⟨2, ![R, L]⟩ : Shape).size 1) => x (ix2 p k) :=
    funext fun k => congrArg x (lift_row h p k)
  rw [e]
  rfl

/-- An [R] vector cast to a column [R, 1], at (p, 0). -/
theorem shapeCast_column_apply {α : Type} (v : (⟨1, ![R]⟩ : Shape).Idx → α)
    (h : (⟨1, ![R]⟩ : Shape).ShapeCasts ⟨2, ![R, 1]⟩) (p : Fin R) (z : Fin 1) :
    shapeCast ⟨2, ![R, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A column [R, 1] broadcast over L lanes, at (p, c): the column's entry at row p. -/
theorem broadcastTo_column_apply {α : Type} (v : (⟨2, ![R, 1]⟩ : Shape).Idx → α)
    (h : (⟨2, ![R, 1]⟩ : Shape).Broadcasts ⟨2, ![R, L]⟩) (p : Fin R) (c : Fin L) :
    broadcastTo ⟨2, ![R, L]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- A one-entry array [1, 1] broadcast to [R, L], at any index: its entry. -/
theorem broadcastTo_one_apply {α : Type} (v : (⟨2, ![1, 1]⟩ : Shape).Idx → α)
    (h : (⟨2, ![1, 1]⟩ : Shape).Broadcasts ⟨2, ![R, L]⟩) (p : Fin R) (c : Fin L) :
    broadcastTo ⟨2, ![R, L]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib

end
-- ==== Proof.LibRowSoftmax.lean ====
/-
  The softmax of each row of an [R, L] array over the extended reals, in a kernel's spelling and in a host program's,
  each read at an entry (p, q), for any extents.
  Both spellings subtract from the row its maximum (a fold of max started at the f32 word of -∞, joined once more with
  that word), exponentiate, and divide by the row's sum of exponentials. A kernel takes the maximum and the sum by lane
  reductions into [R], casts to a column [R, 1] and broadcasts the column over the lanes; a host program reduces over
  axis 1 from a rank-0 initial value and broadcasts [R] → [R, 1] → [R, L]. At an entry both are the one row function
  `rowSoftmax` of the row's entries.
-/
import proofs.«166828_j40561671144053_1_alg».proof.Proof.LibRowOps

noncomputable section

namespace Cert.Lib

open Idealize.ShloMosaic Idealize.ShloMosaic.ValueIdx

variable {R L : Nat}

/-- A row's maximum as both programs take it: the fold of max over the row from the word of -∞, joined with that word. -/
def rowTop (x : Fin L → EReal) : EReal :=
  max (Ideal.ofBits .f32 0xFF800000#32) ((Finset.univ : Finset (Fin L)).fold max (Ideal.ofBits .f32 0xFF800000#32) x)

/-- The softmax of a row: exp (x i − top) over the sum of the row's exp (x l − top), by the total division. -/
def rowSoftmax (x : Fin L → EReal) (i : Fin L) : EReal :=
  Ideal.div (Ideal.exp (x i - rowTop x)) (∑ l : Fin L, Ideal.exp (x l - rowTop x))

/-! ## The kernel's spelling -/

/-- The kernel's row maximum, carried back to every lane of its row. -/
theorem laneTop_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    broadcastTo ⟨2, ![R, L]⟩ (shapeCast ⟨2, ![R, 1]⟩ (maximumf (broadcast ⟨1, ![R]⟩ (FloatOps.ofBits .f32 0xFF800000#32))
        (multiReduction .maximumf [1] ⟨1, ![R]⟩ x 0xFF800000#32 hr hφ hmax)) hc) hb (ix2 p q)
      = rowTop fun k => x (ix2 p k) := by
  rw [broadcastTo_column_apply, shapeCast_column_apply, maximumf_apply, broadcast_apply, laneMax_apply]
  rfl

/-- The kernel's softmax of a block's rows, at (p, q). -/
theorem laneSoftmax_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    divf
        (exp (subf x (broadcastTo ⟨2, ![R, L]⟩ (shapeCast ⟨2, ![R, 1]⟩ (maximumf (broadcast ⟨1, ![R]⟩ (FloatOps.ofBits .f32 0xFF800000#32))
          (multiReduction .maximumf [1] ⟨1, ![R]⟩ x 0xFF800000#32 hr hφ hmax)) hc) hb)))
        (broadcastTo ⟨2, ![R, L]⟩ (shapeCast ⟨2, ![R, 1]⟩ (multiReduction .add [1] ⟨1, ![R]⟩
          (exp (subf x (broadcastTo ⟨2, ![R, L]⟩ (shapeCast ⟨2, ![R, 1]⟩ (maximumf (broadcast ⟨1, ![R]⟩ (FloatOps.ofBits .f32 0xFF800000#32))
            (multiReduction .maximumf [1] ⟨1, ![R]⟩ x 0xFF800000#32 hr hφ hmax)) hc) hb)))
          0x00000000#32 hr hφ hadd) hc) hb)
        (ix2 p q)
      = rowSoftmax (fun k => x (ix2 p k)) q := by
  have hexp : ∀ c : Fin L,
      exp (subf x (broadcastTo ⟨2, ![R, L]⟩ (shapeCast ⟨2, ![R, 1]⟩ (maximumf (broadcast ⟨1, ![R]⟩ (FloatOps.ofBits .f32 0xFF800000#32))
          (multiReduction .maximumf [1] ⟨1, ![R]⟩ x 0xFF800000#32 hr hφ hmax)) hc) hb)) (ix2 p c)
        = Ideal.exp (x (ix2 p c) - rowTop fun k => x (ix2 p k)) := fun c =>
    congrArg (fun t => Ideal.exp (x (ix2 p c) - t)) (laneTop_apply x hr hφ hmax hc hb p c)
  rw [divf_apply, hexp q, broadcastTo_column_apply, shapeCast_column_apply, laneSum_apply]
  unfold rowSoftmax
  exact congrArg _ (Finset.sum_congr rfl fun c _ => hexp c)

/-! ## The host's spelling -/

/-- A rank-0 value broadcast to [R], at any entry. -/
theorem broadcastInDim_scalar_vec_apply {α : Type} (v : (⟨0, ![]⟩ : Shape).Idx → α)
    (h : (⟨0, ![]⟩ : Shape).BroadcastsInDim ⟨1, ![R]⟩ (![] : Fin 0 → Fin 1)) (p : Fin R) :
    broadcastInDim ⟨1, ![R]⟩ ![] h v (ix1 p) = v ix0 :=
  broadcastInDim_apply _ h v (ix1 p) ix0 fun a => a.elim0

/-- An [R] vector broadcast along axis 0 of a column [R, 1], at (p, z). -/
theorem broadcastInDim_vec_column_apply {α : Type} (v : (⟨1, ![R]⟩ : Shape).Idx → α)
    (h : (⟨1, ![R]⟩ : Shape).BroadcastsInDim ⟨2, ![R, 1]⟩ (![0] : Fin 1 → Fin 2)) (p : Fin R) (z : Fin 1) :
    broadcastInDim ⟨2, ![R, 1]⟩ ![0] h v (ix2 p z) = v (ix1 p) := by
  refine broadcastInDim_apply _ h v (ix2 p z) (ix1 p) fun a => ?_
  match a with
  | ⟨0, _⟩ =>
    show p.val = if R = 1 then 0 else p.val
    split
    · have := p.isLt; omega
    · rfl

/-- A column [R, 1] broadcast to [R, L] along both axes, at (p, c). -/
theorem broadcastInDim_column_apply {α : Type} (v : (⟨2, ![R, 1]⟩ : Shape).Idx → α)
    (h : (⟨2, ![R, 1]⟩ : Shape).BroadcastsInDim ⟨2, ![R, L]⟩ (![0, 1] : Fin 2 → Fin 2)) (p : Fin R) (c : Fin L) :
    broadcastInDim ⟨2, ![R, L]⟩ ![0, 1] h v (ix2 p c) = v (ix2 p (0 : Fin 1)) := by
  refine broadcastInDim_apply _ h v (ix2 p c) (ix2 p (0 : Fin 1)) fun a => ?_
  match a with
  | ⟨0, _⟩ =>
    show p.val = if R = 1 then 0 else p.val
    split
    · have := p.isLt; omega
    · rfl
  | ⟨1, _⟩ => rfl

/-- The host's sum over axis 1 at row p: the initial value plus the sum of the row. -/
theorem hostRowSum_apply {u : Shape} (x : (⟨2, ![R, L]⟩ : Shape).Idx → Ideal .f32) (init : u.Idx → Ideal .f32)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduceAdd x init h' hu (ix1 p) = init (Shape.Idx.first hu) + ∑ k : Fin L, x (ix2 p k) := by
  simp only [Host.reduceAdd, Ideal.hostReduceAdd_def]
  rw [Ideal.hostReduceAdd_single h' h]
  refine congrArg (_ + ·) (Finset.sum_congr rfl fun k _ => ?_)
  exact congrArg x (lift_row h p k)

/-- The host's row maximum, carried back to every entry of its row. -/
theorem hostTop_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    broadcastInDim ⟨2, ![R, L]⟩ ![0, 1] h2 (broadcastInDim ⟨2, ![R, 1]⟩ ![0] h1
        (maximumf (broadcastInDim ⟨1, ![R]⟩ ![] h0 (constant (F := Ideal) ⟨0, ![]⟩ .f32 0xFF800000#32))
          (Host.reduce FloatOps.maximumf x (constant (F := Ideal) ⟨0, ![]⟩ .f32 0xFF800000#32) h' hu))) (ix2 p q)
      = rowTop fun k => x (ix2 p k) := by
  rw [broadcastInDim_column_apply, broadcastInDim_vec_column_apply, maximumf_apply, broadcastInDim_scalar_vec_apply,
    hostRowMax_apply x _ h' hr hu p]
  rfl

/-- The host's softmax over axis 1, at (p, q). -/
theorem hostSoftmax_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    Host.divf
        (Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))))
        (broadcastInDim ⟨2, ![R, L]⟩ ![0, 1] h2 (broadcastInDim ⟨2, ![R, 1]⟩ ![0] h1
          (Host.reduceAdd
            (Host.exp (subf x (broadcastInDim ⟨2, ![R, L]⟩ ![0, 1] h2 (broadcastInDim ⟨2, ![R, 1]⟩ ![0] h1
              (maximumf (broadcastInDim ⟨1, ![R]⟩ ![] h0 (constant (F := Ideal) ⟨0, ![]⟩ .f32 0xFF800000#32))
                (Host.reduce FloatOps.maximumf x (constant (F := Ideal) ⟨0, ![]⟩ .f32 0xFF800000#32) h' hu))))))
            (constant (F := Ideal) ⟨0, ![]⟩ .f32 0x00000000#32) h' hu)))
        (ix2 p q)
      = rowSoftmax (fun k => x (ix2 p k)) q := by
  have hexp : ∀ c : Fin L,
      Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))) (ix2 p c)
        = Ideal.exp (x (ix2 p c) - rowTop fun k => x (ix2 p k)) := fun c =>
    congrArg (fun t => Ideal.exp (x (ix2 p c) - t)) (hostTop_apply x h' hr hu h0 h1 h2 p c)
  show Ideal.div _ _ = _
  rw [hexp q, broadcastInDim_column_apply, broadcastInDim_vec_column_apply, hostRowSum_apply _ _ h' hr hu p]
  unfold rowSoftmax
  refine congrArg _ ?_
  rw [constant_apply, Ideal.ofBits_zero_f32, zero_add]
  exact Finset.sum_congr rfl fun c _ => hexp c

end Cert.Lib

end
-- ==== Proof.Row.lean ====
/-
  One row of the computation, over the extended reals. A row holds L entries. From the row's two inputs r (the state) and
  e (the drive), two L × L tables A and B, a weight row w and an offset b:
    score i   = r i · Σ_j (Σ_k e k · A k j) · B j i
    soft      = the row softmax of score (the maximum folded from -∞, exp of the differences, the total division)
    out i     = r i + min(1, max(−1, soft i · soft i · soft i · w i + b)).
  −1 and 1 are kept as the f32 words both programs write.
-/
import proofs.«166828_j40561671144053_1_alg».proof.Proof.LibRowSoftmax

noncomputable section

namespace Cert.Row

open Idealize.ShloMosaic Idealize.ShloMosaic.ValueIdx Cert.Lib

variable {L : Nat}

/-- The score of entry i: the state's entry times the drive pushed through the two tables. -/
def score (r e : Fin L → EReal) (A B : Fin L → Fin L → EReal) (i : Fin L) : EReal :=
  r i * ∑ j : Fin L, (∑ k : Fin L, e k * A k j) * B j i

/-- The clipped cubic update added to the state. -/
def bump (r s w : Fin L → EReal) (b : EReal) (i : Fin L) : EReal :=
  r i + min (Ideal.ofBits .f32 0x3F800000#32) (max (Ideal.ofBits .f32 0xBF800000#32) (s i * s i * s i * w i + b))

/-- The whole row. -/
def out (r e : Fin L → EReal) (A B : Fin L → Fin L → EReal) (w : Fin L → EReal) (b : EReal) (i : Fin L) : EReal :=
  bump r (rowSoftmax (score r e A B)) w b i

/-- The whole [N, L] result from the six argument arrays: row i 0 of the state and of the drive, the first table read
    transposed, the second as it is, the column sums of the third as the weight row, the sum of the vector as the offset. -/
def whole {N : Nat} (x0 x1 : (⟨2, ![N, L]⟩ : Shape).Idx → EReal) (x2 x3 x4 : (⟨2, ![L, L]⟩ : Shape).Idx → EReal)
    (x5 : (⟨1, ![L]⟩ : Shape).Idx → EReal) : (⟨2, ![N, L]⟩ : Shape).Idx → EReal :=
  fun i => out (fun k => x0 (ix2 (i 0 : Fin N) k)) (fun k => x1 (ix2 (i 0 : Fin N) k)) (fun k j => x2 (ix2 j k))
    (fun j l => x3 (ix2 j l)) (fun l => ∑ k : Fin L, x4 (ix2 k l)) (∑ j : (⟨1, ![L]⟩ : Shape).Idx, x5 j) (i 1 : Fin L)

end Cert.Row

end
-- ==== Proof.KernelRow.lean ====
/-
  The block body's stored value, entry by entry: row p of the stored [4096, 7] block is the row function of row p of the
  two loaded [4096, 7] blocks, the two 7 × 7 tables, the one-row weight block and the one-entry offset block.
  The two block products are sums over the contracted coordinate; the lane maximum and lane sum with their column casts and
  broadcasts are the row softmax; the weight row and the offset are broadcast to every row.
-/
import proofs.«166828_j40561671144053_1_alg».proof.Proof.Gen.KernelIdeal.Skeleton
import proofs.«166828_j40561671144053_1_alg».proof.Proof.LibDotSum
import proofs.«166828_j40561671144053_1_alg».proof.Proof.Row
import Idealize.ShloMosaic.Lib.ValueLayout

noncomputable section

namespace Cert.KernelIdeal.RowValue

open Cert.KernelIdeal Cert.KernelIdeal.Gen Idealize.ShloMosaic Idealize.ShloMosaic.ValueIdx Cert.Lib

/-- A [4096, 7] × [7, 7] block product into the zero block, at (p, c). -/
theorem prod_apply (A : FVec Ideal S4096x7 .f32) (B : FVec Ideal S7x7 .f32) (p : Fin 4096) (c : Fin 7) :
    matmul dot_S4096x7_S7x7_S4096x7_1_0_0_1_n_n none A B (constant S4096x7 .f32 0x00000000#32) (ix2 p c)
      = ∑ k : Fin 7, A (ix2 p k) * B (ix2 k c) :=
  matmul_rc_apply _ rfl rfl rfl rfl rfl rfl none A B p c

/-- The score block, at (p, k): the score of entry k of row p. -/
theorem score_apply (x0 x1 : FVec Ideal S4096x7 .f32) (x2 x4 : FVec Ideal S7x7 .f32) (p : Fin 4096) :
    (fun k : Fin 7 => (mulf x0 (matmul dot_S4096x7_S7x7_S4096x7_1_0_0_1_n_n none
        (matmul dot_S4096x7_S7x7_S4096x7_1_0_0_1_n_n none x1 x2 (constant S4096x7 .f32 0x00000000#32)) x4
        (constant S4096x7 .f32 0x00000000#32))) (ix2 p k))
      = Row.score (fun k => x0 (ix2 p k)) (fun k => x1 (ix2 p k)) (fun k j => x2 (ix2 k j)) (fun j l => x4 (ix2 j l)) := by
  funext k
  unfold Row.score
  rw [mulf_apply, prod_apply]
  simp only [prod_apply]

/-- The body's softmax of a [4096, 7] block, at (p, q): the row softmax of row p. -/
theorem soft_apply (x : FVec Ideal S4096x7 .f32) (hφ : FKind.Formats .f32)
    (hmax : (0xFF800000#32 : BitVec 32) = FKind.maximumf.neutral .f32 hφ)
    (hadd : (0x00000000#32 : BitVec 32) = FKind.add.neutral .f32 hφ) (p : Fin 4096) (q : Fin 7) :
    divf
        (exp (subf x (broadcastTo S4096x7 (shapeCast S4096x1 (maximumf (broadcast S4096 (FloatOps.ofBits .f32 0xFF800000#32))
          (multiReduction .maximumf [1] S4096 x 0xFF800000#32 reduces_S4096x7_S4096 hφ hmax)) shapeCasts_S4096_S4096x1) broadcasts_S4096x1_S4096x7)))
        (broadcastTo S4096x7 (shapeCast S4096x1 (multiReduction .add [1] S4096
          (exp (subf x (broadcastTo S4096x7 (shapeCast S4096x1 (maximumf (broadcast S4096 (FloatOps.ofBits .f32 0xFF800000#32))
            (multiReduction .maximumf [1] S4096 x 0xFF800000#32 reduces_S4096x7_S4096 hφ hmax)) shapeCasts_S4096_S4096x1) broadcasts_S4096x1_S4096x7)))
          0x00000000#32 reduces_S4096x7_S4096 hφ hadd) shapeCasts_S4096_S4096x1) broadcasts_S4096x1_S4096x7)
        (ix2 p q)
      = rowSoftmax (fun k => x (ix2 p k)) q :=
  laneSoftmax_apply x reduces_S4096x7_S4096 hφ hmax hadd shapeCasts_S4096_S4096x1 broadcasts_S4096x1_S4096x7 p q

/-- The stored block at (p, q) is the row function of row p of the loaded blocks. -/
theorem pay_apply (x0 x1 : Vec Ideal S4096x7 .f32) (x2 x4 : Vec Ideal S7x7 .f32) (x19 : Vec Ideal S1x7 .f32)
    (x21 : Vec Ideal S1x1 .f32) (p : Fin 4096) (q : Fin 7) :
    k0_pay1 x0 x1 x2 x4 x19 x21 (ix2 p q)
      = Row.out (fun k => x0 (ix2 p k)) (fun k => x1 (ix2 p k)) (fun k j => x2 (ix2 k j)) (fun j l => x4 (ix2 j l))
          (fun l => x19 (ix2 (0 : Fin 1) l)) (x21 (ix2 (0 : Fin 1) (0 : Fin 1))) q := by
  unfold k0_pay1
  simp only [shapeCast_self]
  rw [addf_apply, minimumf_apply, maximumf_apply, addf_apply, mulf_apply, mulf_apply, mulf_apply, broadcast_apply,
    broadcast_apply, broadcastTo_1b_ab_apply, broadcastTo_one_apply]
  unfold Row.out Row.bump
  refine congrArg (fun s : EReal => x0 (ix2 p q) + min (Ideal.ofBits .f32 0x3F800000#32)
    (max (Ideal.ofBits .f32 0xBF800000#32) (s * s * s * x19 (ix2 (0 : Fin 1) q) + x21 (ix2 (0 : Fin 1) (0 : Fin 1))))) ?_
  rw [← score_apply]
  exact soft_apply _ (.inl rfl) rfl rfl p q

end Cert.KernelIdeal.RowValue

end
-- ==== Proof.HostPrefix.lean ====
/-
  What the region finds in the three arrays the host computes before it: the first table transposed, the column sums of
  the third table laid out as one row, and the sum of the offset vector as a one-entry array. Each is read at an entry
  as a function of the argument arrays: the host's sum from the zero word is the plain sum.
-/
import proofs.«166828_j40561671144053_1_alg».proof.Proof.Gen.KernelIdeal.Frame
import Idealize.ShloMosaic.Lib.StableHlo.Run
import Idealize.ShloMosaic.Lib.ValueLayout
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The six argument arrays on core c, each at its literal type. -/
abbrev argState (c : Dev nD) : FVec Ideal S1048576x7 .f32 := m ((c : Thread nD τ).loc main_arg0)
abbrev argDrive (c : Dev nD) : FVec Ideal S1048576x7 .f32 := m ((c : Thread nD τ).loc main_arg1)
abbrev argQ (c : Dev nD) : FVec Ideal S7x7 .f32 := m ((c : Thread nD τ).loc main_arg2)
abbrev argK (c : Dev nD) : FVec Ideal S7x7 .f32 := m ((c : Thread nD τ).loc main_arg3)
abbrev argD (c : Dev nD) : FVec Ideal S7x7 .f32 := m ((c : Thread nD τ).loc main_arg4)
abbrev argOff (c : Dev nD) : FVec Ideal S7 .f32 := m ((c : Thread nD τ).loc main_arg5)

/-- The transposed table, as a term of the first table. -/
theorem V_main_v0 (c : Dev nD) :
    (V m c main_v0 : S7x7.Idx → EReal)
      = transpose S7x7 [1, 0] (m ((c : Thread nD τ).loc main_arg2)) transposes_S7x7_S7x7_1_0 := by
  dsimp only [Gen.V, Gen.hostOps0]
  after_results

/-- The weight row, as a term of the third table. -/
theorem V_main_v2 (c : Dev nD) :
    (V m c main_v2 : S1x7.Idx → EReal)
      = shapeCast S1x7 (Host.reduceAdd (m ((c : Thread nD τ).loc main_arg4)) (constant (F := Ideal) S_ .f32 0x00000000#32)
          reducesTo_S7x7_S7_d0 h_S_) shapeCasts_S7_S1x7 := by
  dsimp only [Gen.V, Gen.hostOps0]
  after_results
  rfl

/-- The one-entry offset, as a term of the offset vector. -/
theorem V_main_v4 (c : Dev nD) :
    (V m c main_v4 : S1x1.Idx → EReal)
      = shapeCast S1x1 (Host.reduceAdd (m ((c : Thread nD τ).loc main_arg5)) (constant (F := Ideal) S_ .f32 0x00000000#32)
          reducesTo_S7_S_d0 h_S_) shapeCasts_S_S1x1 := by
  dsimp only [Gen.V, Gen.hostOps0]
  after_results
  rfl

/-- The transposed table at (k, j) is the first table at (j, k). -/
theorem table_apply (c : Dev nD) (k j : Fin 7) :
    (V m c main_v0 : S7x7.Idx → EReal) (ix2 k j) = argQ m c (ix2 j k) := by
  rw [V_main_v0]
  exact transpose_ix2_apply _ _ k j

/-- The weight row at (0, l) is the sum of column l of the third table. -/
theorem weight_apply (c : Dev nD) (l : Fin 7) :
    (V m c main_v2 : S1x7.Idx → EReal) (ix2 (0 : Fin 1) l)
      = ∑ k : Fin 7, argD m c (ix2 k l) := by
  rw [V_main_v2]
  refine (shapeCast_a_1a_apply _ shapeCasts_S7_S1x7 (0 : Fin 1) l).trans ?_
  simp only [Host.reduceAdd, Ideal.hostReduceAdd_def]
  rw [Ideal.hostReduceAdd_single reducesTo_S7x7_S7_d0 (by decide)]
  show Ideal.ofBits .f32 0x00000000#32 + _ = _
  rw [Ideal.ofBits_zero_f32, zero_add]
  refine Finset.sum_congr rfl fun k _ => congrArg _ (funext fun a => Fin.ext ?_)
  match a with
  | ⟨0, _⟩ => rfl
  | ⟨1, _⟩ => rfl

/-- The one-entry offset is the sum of the offset vector. -/
theorem offset_apply (c : Dev nD) (i : S1x1.Idx) :
    (V m c main_v4 : S1x1.Idx → EReal) i = ∑ j : S7.Idx, argOff m c j := by
  rw [V_main_v4]
  refine (shapeCast_apply _ shapeCasts_S_S1x1 i ix0 ?_).trans ?_
  · rw [Shape.rowMajor_val_two]
    have h0 : (i 0).val < 1 := (i 0).isLt
    have h1 : (i 1).val < 1 := (i 1).isLt
    show 0 = (i 0).val * 1 + (i 1).val
    have e0 : (i 0).val = 0 := by omega
    have e1 : (i 1).val = 0 := by omega
    rw [e0, e1]
  · simp only [Host.reduceAdd, Ideal.hostReduceAdd_def]
    rw [Ideal.hostReduceAdd_total reducesTo_S7_S_d0 (fun b => b.elim0)]
    show Ideal.ofBits .f32 0x00000000#32 + _ = _
    rw [Ideal.ofBits_zero_f32, zero_add]

end Cert.KernelIdeal.HostPrefix

end
-- ==== Proof.Blocks.lean ====
/-
  From blocks to the array. Grid point t stores, into rows 4096·t … 4096·t + 4095 of the result, the row function of the same
  rows of the state and of the drive; the two tables, the weight row and the offset are the same whole blocks at every point.
  The 256 blocks tile the [1048576, 7] result, so after the run the result is the whole-array function of the six arguments:
  the transposed table the region finds is the first table read transposed, the weight row it finds holds the column sums
  of the third table, and the one-entry offset it finds holds the sum of the offset vector.
-/
import proofs.«166828_j40561671144053_1_alg».proof.Proof.Gen.KernelIdeal.Value
import proofs.«166828_j40561671144053_1_alg».proof.Proof.KernelRow
import proofs.«166828_j40561671144053_1_alg».proof.Proof.HostPrefix

noncomputable section

namespace Cert.KernelIdeal.ArrayValue

open Cert.KernelIdeal Cert.KernelIdeal.Gen Cert.KernelIdeal.Value Cert.KernelIdeal.HostPrefix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- One point, over plain blocks and arrays: if the two row blocks are rows T·4096 … of their arrays, the table blocks are
    the second table and the first table transposed, the weight block holds the third table's column sums and the offset
    block the vector's sum, then the stored block at y is the whole-array function at the entry y lands on. -/
theorem point_eq (T : Nat)
    (b0 b1 : FVec Ideal S4096x7 .f32) (b2 b3 : FVec Ideal S7x7 .f32) (b4 : FVec Ideal S1x7 .f32) (b5 : FVec Ideal S1x1 .f32)
    (a0 a1 : FVec Ideal S1048576x7 .f32) (a2 a3 a4 : FVec Ideal S7x7 .f32) (a5 : FVec Ideal S7 .f32)
    (h0 : ∀ (y : S4096x7.Idx) (i : S1048576x7.Idx), (i 0).val = T * 4096 + (y 0).val → (i 1).val = (y 1).val → b0 y = a0 i)
    (h1 : ∀ (y : S4096x7.Idx) (i : S1048576x7.Idx), (i 0).val = T * 4096 + (y 0).val → (i 1).val = (y 1).val → b1 y = a1 i)
    (h2 : ∀ k j : Fin 7, b2 (ix2 k j) = a2 (ix2 j k)) (h3 : ∀ j l : Fin 7, b3 (ix2 j l) = a3 (ix2 j l))
    (h4 : ∀ l : Fin 7, b4 (ix2 (0 : Fin 1) l) = ∑ k : Fin 7, a4 (ix2 k l))
    (h5 : b5 (ix2 (0 : Fin 1) (0 : Fin 1)) = ∑ j : S7.Idx, a5 j)
    (y : S4096x7.Idx) (i : S1048576x7.Idx) (e0 : (i 0).val = T * 4096 + (y 0).val) (e1 : (i 1).val = (y 1).val) :
    k0_pay1 (F := Ideal) b0 b1 b2 b3 b4 b5 y = Row.whole a0 a1 a2 a3 a4 a5 i := by
  obtain ⟨p, q, rfl⟩ : ∃ (p : Fin 4096) (q : Fin 7), y = ix2 p q := ⟨y 0, y 1, eq_ix2 y⟩
  rw [RowValue.pay_apply]
  unfold Row.whole
  have hq : (i 1 : Fin 7) = q := Fin.ext e1
  have r0 : (fun k : Fin 7 => b0 (ix2 p k)) = fun k => a0 (ix2 (i 0 : Fin 1048576) k) :=
    funext fun k => h0 (ix2 p k) (ix2 (i 0 : Fin 1048576) k) e0 rfl
  have r1 : (fun k : Fin 7 => b1 (ix2 p k)) = fun k => a1 (ix2 (i 0 : Fin 1048576) k) :=
    funext fun k => h1 (ix2 p k) (ix2 (i 0 : Fin 1048576) k) e0 rfl
  have r2 : (fun k j : Fin 7 => b2 (ix2 k j)) = fun k j => a2 (ix2 j k) := funext fun k => funext fun j => h2 k j
  have r3 : (fun j l : Fin 7 => b3 (ix2 j l)) = fun j l => a3 (ix2 j l) := funext fun j => funext fun l => h3 j l
  have r4 : (fun l : Fin 7 => b4 (ix2 (0 : Fin 1) l)) = fun l => ∑ k : Fin 7, a4 (ix2 k l) := funext h4
  rw [r0, r1, r2, r3, r4, h5, hq]

/-- The printed index maps over the 256 points: the two row windows move with the result's window, whose block index is
    the point's number; the four whole-array windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the whole-array function of the six arguments. -/
theorem flushed_eq (c : Dev nD) (t : Fin cfg0.N) :
    (dats m 0 c).flushed 6 t = ((cfg0.win 6).blk t).view.read (Elt Ideal)
      (Row.whole (argState m c) (argDrive m c) (argQ m c) (argK m c) (argD m c) (argOff m c)) := by
  rw [Value.flushed6]
  unfold out0_6
  rw [View.canon_unit_zero zeroOffsets]
  simp only [View.ld_unit_zero (S := S4096x7) zeroOffsets, View.ld_unit_zero (S := S7x7) zeroOffsets,
    View.ld_unit_zero (S := S1x7) zeroOffsets, View.ld_unit_zero (S := S1x1) zeroOffsets]
  obtain ⟨f00, f01, f10, f11, f20, f21, f30, f31, f40, f41, f50, f51, f60, f61⟩ := idx_facts t
  funext j
  show k0_pay1 (F := Ideal) (iblk m c 0 t) (iblk m c 1 t) (iblk m c 2 t) (iblk m c 3 t) (iblk m c 4 t) (iblk m c 5 t) j
    = Row.whole (argState m c) (argDrive m c) (argQ m c) (argK m c) (argD m c) (argOff m c) (((cfg0.win 6).blk t).view.emb j)
  refine point_eq t.val (iblk m c 0 t) (iblk m c 1 t) (iblk m c 2 t) (iblk m c 3 t) (iblk m c 4 t) (iblk m c 5 t)
    (argState m c) (argDrive m c) (argQ m c) (argK m c) (argD m c) (argOff m c) ?_ ?_ ?_ ?_ ?_ ?_
    j (((cfg0.win 6).blk t).view.emb j) ?_ ?_
  · intro y i e0 e1
    show V m c main_arg0 (((cfg0.win 0).blk t).view.emb y) = argState m c i
    rw [V_main_arg0]
    refine congrArg _ (funext fun a => Fin.ext ?_)
    match a with
    | ⟨0, _⟩ => show win0_0.index t (0 : Fin 2) * 4096 + 1 * (y 0).val = (i 0).val; omega
    | ⟨1, _⟩ => show win0_0.index t (1 : Fin 2) * 7 + 1 * (y 1).val = (i 1).val; omega
  · intro y i e0 e1
    show V m c main_arg1 (((cfg0.win 1).blk t).view.emb y) = argDrive m c i
    rw [V_main_arg1]
    refine congrArg _ (funext fun a => Fin.ext ?_)
    match a with
    | ⟨0, _⟩ => show win0_1.index t (0 : Fin 2) * 4096 + 1 * (y 0).val = (i 0).val; omega
    | ⟨1, _⟩ => show win0_1.index t (1 : Fin 2) * 7 + 1 * (y 1).val = (i 1).val; omega
  · intro k j'
    show V m c main_v0 (((cfg0.win 2).blk t).view.emb (ix2 k j')) = argQ m c (ix2 j' k)
    refine Eq.trans (congrArg _ (funext fun a => Fin.ext ?_)) (table_apply m c k j')
    match a with
    | ⟨0, _⟩ => show win0_2.index t (0 : Fin 2) * 7 + 1 * k.val = k.val; omega
    | ⟨1, _⟩ => show win0_2.index t (1 : Fin 2) * 7 + 1 * j'.val = j'.val; omega
  · intro j' l
    show V m c main_arg3 (((cfg0.win 3).blk t).view.emb (ix2 j' l)) = argK m c (ix2 j' l)
    rw [V_main_arg3]
    refine congrArg _ (funext fun a => Fin.ext ?_)
    match a with
    | ⟨0, _⟩ => show win0_3.index t (0 : Fin 2) * 7 + 1 * j'.val = j'.val; omega
    | ⟨1, _⟩ => show win0_3.index t (1 : Fin 2) * 7 + 1 * l.val = l.val; omega
  · intro l
    show V m c main_v2 (((cfg0.win 4).blk t).view.emb (ix2 (0 : Fin 1) l)) = _
    refine Eq.trans (congrArg _ (funext fun a => Fin.ext ?_)) (weight_apply m c l)
    match a with
    | ⟨0, _⟩ => show win0_4.index t (0 : Fin 2) * 1 + 1 * 0 = 0; omega
    | ⟨1, _⟩ => show win0_4.index t (1 : Fin 2) * 7 + 1 * l.val = l.val; omega
  · show V m c main_v4 (((cfg0.win 5).blk t).view.emb (ix2 (0 : Fin 1) (0 : Fin 1))) = _
    exact offset_apply m c _
  · show win0_6.index t (0 : Fin 2) * 4096 + 1 * (j 0).val = t.val * 4096 + (j 0).val; omega
  · show win0_6.index t (1 : Fin 2) * 7 + 1 * (j 1).val = (j 1).val; omega

/-- An entry is in point t's block iff each coordinate is in the block's range on its axis. -/
theorem mem_blk (t : Fin cfg0.N) (i : S1048576x7.Idx) :
    i ∈ ((cfg0.win 6).blk t).view.set ↔ ∀ a : Fin 2, win0_6.index t a * S4096x7.size a ≤ (i a).val
      ∧ (i a).val < win0_6.index t a * S4096x7.size a + S4096x7.size a := by
  show i ∈ ((View.whole main_v5).slice (win0_6.rect t)).set ↔ _
  rw [View.set_slice_whole, Rect.mem_set_unit]
  exact Iff.rfl

/-- Every entry of the result is in some point's block: row r is in block r / 4096. -/
theorem cover (i : S1048576x7.Idx) :
    ∃ t : Fin cfg0.N, (cfg0.win 6).flush t = true ∧ i ∈ ((cfg0.win 6).blk t).view.set := by
  have hi0 : (i 0).val < 1048576 := (i 0).isLt
  have hi1 : (i 1).val < 7 := (i 1).isLt
  have hN : cfg0.N = 256 := N_0
  have hlt : (i 0).val / 4096 < cfg0.N := by rw [hN]; omega
  refine ⟨⟨(i 0).val / 4096, hlt⟩, flush0_6 _, ?_⟩
  rw [mem_blk]
  obtain ⟨f00, f01, f10, f11, f20, f21, f30, f31, f40, f41, f50, f51, f60, f61⟩ := idx_facts ⟨(i 0).val / 4096, hlt⟩
  have f60' : win0_6.index ⟨(i 0).val / 4096, hlt⟩ (0 : Fin 2) = (i 0).val / 4096 := f60
  intro a
  match a with
  | ⟨0, _⟩ =>
    show win0_6.index ⟨(i 0).val / 4096, hlt⟩ (0 : Fin 2) * 4096 ≤ (i 0).val
      ∧ (i 0).val < win0_6.index ⟨(i 0).val / 4096, hlt⟩ (0 : Fin 2) * 4096 + 4096
    omega
  | ⟨1, _⟩ =>
    show win0_6.index ⟨(i 0).val / 4096, hlt⟩ (1 : Fin 2) * 7 ≤ (i 1).val
      ∧ (i 1).val < win0_6.index ⟨(i 0).val / 4096, hlt⟩ (1 : Fin 2) * 7 + 7
    omega

/-- The result array after the run. -/
theorem final (c : Dev nD) :
    (dats m 0 c).arrAt 6 cfg0.N = Row.whole (argState m c) (argDrive m c) (argQ m c) (argK m c) (argD m c) (argOff m c) :=
  (dats m 0 c).arrAt_eq_of_cover 6 _ (fun t _ => flushed_eq m c t) cover

/-- The kernel program's run, read: the result at the whole-array function of the arguments, the arguments unchanged. -/
theorem run : θ_run defs (onTc (τ := τ) (main (F := Ideal))) ⟨m, fun _ => 0, ρ⟩ fun r => ∀ c : Dev nD,
      r.2.mem ((c : Thread nD τ).loc main_v5)
        = Row.whole (argState m c) (argDrive m c) (argQ m c) (argK m c) (argD m c) (argOff m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefRow.lean ====
/-
  The reference's result array, entry by entry: entry (r, q) is the row function of row r of the two [1048576, 7] inputs,
  the first table transposed, the second table, the column sums of the third table and the sum of the offset vector.
  The two host products are sums over the contracted coordinate; the host's reductions over axis 1 with their broadcasts
  are the row softmax; the clip is a max with −1 then a min with 1.
-/
import proofs.«166828_j40561671144053_1_alg».proof.Proof.Gen.ReferenceIdeal.Read
import proofs.«166828_j40561671144053_1_alg».proof.Proof.LibDotSum
import proofs.«166828_j40561671144053_1_alg».proof.Proof.Row
import Idealize.ShloMosaic.Lib.ValueLayout

noncomputable section

namespace Cert.ReferenceIdeal.RowValue

open Cert.ReferenceIdeal Cert.ReferenceIdeal.Gen Cert.ReferenceIdeal.Read Idealize.ShloMosaic Idealize.ShloMosaic.ValueIdx Cert.Lib

variable (x0 x1 : (⟨S1048576x7, .f32⟩ : BufTy).Contents (Elt Ideal)) (x2 x3 x4 : (⟨S7x7, .f32⟩ : BufTy).Contents (Elt Ideal))
  (x5 : (⟨S7, .f32⟩ : BufTy).Contents (Elt Ideal))

/-- A [1048576, 7] × [7, 7] host product, at (r, c). -/
theorem prod_apply (A : FVec Ideal S1048576x7 .f32) (B : FVec Ideal S7x7 .f32) (r : Fin 1048576) (c : Fin 7) :
    Host.dotGeneral dot_S1048576x7_S7x7_S1048576x7_1_0_0_1_n_n none A B (ix2 r c) = ∑ k : Fin 7, A (ix2 r k) * B (ix2 k c) :=
  dotGeneral_rc_apply _ rfl rfl rfl rfl rfl rfl none A B r c

/-- The first table transposed, at (k, j): the table at (j, k). -/
theorem table_apply (T : FVec Ideal S7x7 .f32) (k j : Fin 7) :
    transpose S7x7 [1, 0] T transposes_S7x7_S7x7_1_0 (ix2 k j) = T (ix2 j k) :=
  transpose_ix2_apply _ _ k j

/-- The score array at (r, k): the score of entry k of row r, the first table read transposed. -/
theorem score_apply (r : Fin 1048576) :
    (fun k : Fin 7 => val_main_v3 (F := Ideal) x0 x1 x2 x3 (ix2 r k))
      = Row.score (fun k => x0 (ix2 r k)) (fun k => x1 (ix2 r k)) (fun k j => x2 (ix2 j k)) (fun j l => x3 (ix2 j l)) := by
  funext k
  unfold Row.score val_main_v3 val_main_v2 val_main_v1 val_main_v0
  rw [mulf_apply, prod_apply]
  refine congrArg (x0 (ix2 r k) * ·) (Finset.sum_congr rfl fun j _ => ?_)
  rw [prod_apply]
  refine congrArg (· * x3 (ix2 j k)) (Finset.sum_congr rfl fun k' _ => ?_)
  exact congrArg (x1 (ix2 r k') * ·) (table_apply x2 k' j)

/-- The softmax array at (r, q): the row softmax of row r of the scores. -/
theorem soft_apply (r : Fin 1048576) (q : Fin 7) :
    val_main_v14 (F := Ideal) x0 x1 x2 x3 (ix2 r q)
      = rowSoftmax (fun k => val_main_v3 (F := Ideal) x0 x1 x2 x3 (ix2 r k)) q :=
  hostSoftmax_apply (val_main_v3 (F := Ideal) x0 x1 x2 x3) reducesTo_S1048576x7_S1048576_d1 (by decide) h_S_
    bcast_S_S1048576 bcast_S1048576_S1048576x1_0 bcast_S1048576x1_S1048576x7_0_1 r q

/-- The upper clip bound at any entry: the word of 1. -/
theorem hi_apply (i : S1048576x7.Idx) : val_main_call0_v4 (F := Ideal) i = Ideal.ofBits .f32 0x3F800000#32 := by
  rw [val_main_call0_v4_apply]; rfl

/-- The lower clip bound at any entry: the word of −1. -/
theorem lo_apply (i : S1048576x7.Idx) : val_main_call0_v1 (F := Ideal) i = Ideal.ofBits .f32 0xBF800000#32 := by
  rw [val_main_call0_v1_apply]; rfl

/-- The weight array at (r, q): the sum of column q of the third table. -/
theorem weight_apply (r : Fin 1048576) (q : Fin 7) :
    val_main_v19 (F := Ideal) x4 (ix2 r q) = ∑ k : Fin 7, x4 (ix2 k q) := by
  rw [val_main_v19_apply, val_main_v18_apply, val_main_v17_apply, val_main_cst_2_apply]
  show Ideal.ofBits .f32 0x00000000#32 + _ = _
  rw [Ideal.ofBits_zero_f32, zero_add]
  refine Finset.sum_congr rfl fun k _ => congrArg x4 (funext fun a => Fin.ext ?_)
  match a with
  | ⟨0, _⟩ => rfl
  | ⟨1, _⟩ => rfl

/-- The offset array at any entry: the sum of the offset vector. -/
theorem offset_apply (i : S1048576x7.Idx) : val_main_v22 (F := Ideal) x5 i = ∑ j : S7.Idx, x5 j := by
  rw [val_main_v22_apply, val_main_v21_apply, val_main_cst_3_apply]
  show Ideal.ofBits .f32 0x00000000#32 + _ = _
  rw [Ideal.ofBits_zero_f32, zero_add]

/-- The result array at (r, q) is the row function of row r. -/
theorem ref_apply (r : Fin 1048576) (q : Fin 7) :
    val_main_v25 (F := Ideal) x0 x1 x2 x3 x4 x5 (ix2 r q)
      = Row.out (fun k => x0 (ix2 r k)) (fun k => x1 (ix2 r k)) (fun k j => x2 (ix2 j k)) (fun j l => x3 (ix2 j l))
          (fun l => ∑ k : Fin 7, x4 (ix2 k l)) (∑ j : S7.Idx, x5 j) q := by
  rw [val_main_v25_apply, val_main_v24_apply, val_main_call0_v2_apply, val_main_v23_apply, val_main_v20_apply,
    val_main_v16_apply, val_main_v15_apply, hi_apply, lo_apply, weight_apply, offset_apply]
  simp only [Ideal.addf_def, Ideal.mulf_def, Ideal.minimumf_def, Ideal.maximumf_def]
  unfold Row.out Row.bump
  refine congrArg (fun s : EReal => x0 (ix2 r q) + min (Ideal.ofBits .f32 0x3F800000#32)
    (max (Ideal.ofBits .f32 0xBF800000#32) (s * s * s * (∑ k : Fin 7, x4 (ix2 k q)) + ∑ j : S7.Idx, x5 j))) ?_
  rw [← score_apply]
  exact soft_apply x0 x1 x2 x3 r q

/-- The result array is the whole-array function of the six arguments. -/
theorem ref_whole : val_main_v25 (F := Ideal) x0 x1 x2 x3 x4 x5 = Row.whole x0 x1 x2 x3 x4 x5 := by
  funext i
  obtain ⟨r, q, rfl⟩ : ∃ (r : Fin 1048576) (q : Fin 7), i = ix2 r q := ⟨i 0, i 1, eq_ix2 i⟩
  exact ref_apply x0 x1 x2 x3 x4 x5 r q

end Cert.ReferenceIdeal.RowValue

end
-- ==== Proof.lean ====
/- The certificate of the row-update kernel against its reference, over the extended reals.
   Both programs compute, for each of the 1048576 rows independently, the same function of the row (Proof/Row.lean):
   the scores r i · Σ_j (Σ_k e k · W_Q j k) · W_K j i, their softmax along the row, and the state plus the clipped cubic
   of the softmax weighted by the column sums of W_D and offset by the sum of b_D. The kernel computes it block by block,
   4096 rows at a point, with its two products, its lane maximum and lane sum (Proof/KernelRow.lean), from the transposed
   table and the two sums the host prepares before the region (Proof/HostPrefix.lean), and its 256 blocks tile the result
   (Proof/Blocks.lean); the reference computes it on the whole arrays with the host's products and reductions
   (Proof/RefRow.lean). No step needs finiteness: the two sides are the same sums, folds, exponentials and quotients
   entry by entry, so the precondition is never opened. The ideal pass rewrote nothing, so the kernel's idealization is its
   own text and the preserving conjunct is trivial. The three frames are the generated frame runs. -/
import proofs.«166828_j40561671144053_1_alg».proof.Defs
import proofs.«166828_j40561671144053_1_alg».proof.Proof.Gen.Kernel
import proofs.«166828_j40561671144053_1_alg».proof.Proof.Gen.Kernel.Skeleton
import proofs.«166828_j40561671144053_1_alg».proof.Proof.Gen.Kernel.Launch
import proofs.«166828_j40561671144053_1_alg».proof.Proof.Gen.Kernel.Points
import proofs.«166828_j40561671144053_1_alg».proof.Proof.Gen.Kernel.Frame
import proofs.«166828_j40561671144053_1_alg».proof.Proof.Gen.KernelIdeal
import proofs.«166828_j40561671144053_1_alg».proof.Proof.Gen.KernelIdeal.Skeleton
import proofs.«166828_j40561671144053_1_alg».proof.Proof.Gen.KernelIdeal.Launch
import proofs.«166828_j40561671144053_1_alg».proof.Proof.Gen.KernelIdeal.Points
import proofs.«166828_j40561671144053_1_alg».proof.Proof.Gen.KernelIdeal.Frame
import proofs.«166828_j40561671144053_1_alg».proof.Proof.Gen.ReferenceIdeal
import proofs.«166828_j40561671144053_1_alg».proof.Proof.Gen.Pre_finite_inputs
import proofs.«166828_j40561671144053_1_alg».proof.Proof.Gen.KernelIdeal.Value
import proofs.«166828_j40561671144053_1_alg».proof.Proof.Gen.ReferenceIdeal.Run
import proofs.«166828_j40561671144053_1_alg».proof.Proof.Gen.ReferenceIdeal.Read
import proofs.«166828_j40561671144053_1_alg».proof.Proof.Blocks
import proofs.«166828_j40561671144053_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the whole-array function of the arguments in
    their result: the kernel by its blocks, the reference by its operations read entry by entry. -/
theorem algebraic : Cert.algebraic_KernelIdeal_ReferenceIdeal := by
  intro m ρ m' ρ' _ hagree
  refine ⟨fun c => Row.whole (Cert.KernelIdeal.HostPrefix.argState m c) (Cert.KernelIdeal.HostPrefix.argDrive m c)
    (Cert.KernelIdeal.HostPrefix.argQ m c) (Cert.KernelIdeal.HostPrefix.argK m c) (Cert.KernelIdeal.HostPrefix.argD m c)
    (Cert.KernelIdeal.HostPrefix.argOff m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RowValue.ref_whole]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
